-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x4 : Shape := ⟨4, ![4, 16, 2048, 4]⟩
abbrev S4x2048x2048 : Shape := ⟨3, ![4, 2048, 2048]⟩
abbrev S_ : Shape := ⟨0, ![]⟩

class Facts : Prop where
  bcast_S_S4x16x2048x4 : S_.BroadcastsInDim S4x16x2048x4 (![] : Fin 0 → Fin S4x16x2048x4.rank)
  reducesTo_S4x16x2048x4_S_d0_1_2_3 : S4x16x2048x4.ReducesTo [0, 1, 2, 3] S_
  h_S_ : 0 < S_.numel

variable [Facts]

def fn {F : FTy → Type} [FloatOps F] (main_arg0 : FVec F S4x16x2048x4 .f32) (main_arg1 : FVec F S4x16x2048x4 .f32) (main_arg2 : FVec F S4x16x2048x4 .f32) (main_arg3 : IVec S4x2048x2048 32) : IVec S_ 1 :=
  let main_v0 : FVec F S4x16x2048x4 .f32 := Host.absf main_arg0
  let main_cst : FVec F S_ .f32 := constant S_ .f32 0x7F800000#32
  let main_v1 : FVec F S4x16x2048x4 .f32 := broadcastInDim S4x16x2048x4 ![] bcast_S_S4x16x2048x4 main_cst
  let main_v2 : IVec S4x16x2048x4 1 := cmpf .olt main_v0 main_v1
  let main_c : IVec S_ 1 := constantI S_ 1 1#1
  let main_v3 : IVec S_ 1 := (fun x v => Host.reduce IntOp.andi x v reducesTo_S4x16x2048x4_S_d0_1_2_3 h_S_) main_v2 main_c
  let main_v4 : FVec F S4x16x2048x4 .f32 := Host.absf main_arg1
  let main_cst_0 : FVec F S_ .f32 := constant S_ .f32 0x7F800000#32
  let main_v5 : FVec F S4x16x2048x4 .f32 := broadcastInDim S4x16x2048x4 ![] bcast_S_S4x16x2048x4 main_cst_0
  let main_v6 : IVec S4x16x2048x4 1 := cmpf .olt main_v4 main_v5
  let main_c_1 : IVec S_ 1 := constantI S_ 1 1#1
  let main_v7 : IVec S_ 1 := (fun x v => Host.reduce IntOp.andi x v reducesTo_S4x16x2048x4_S_d0_1_2_3 h_S_) main_v6 main_c_1
  let main_v8 : IVec S_ 1 := andi main_v3 main_v7
  let main_v9 : FVec F S4x16x2048x4 .f32 := Host.absf main_arg2
  let main_cst_2 : FVec F S_ .f32 := constant S_ .f32 0x7F800000#32
  let main_v10 : FVec F S4x16x2048x4 .f32 := broadcastInDim S4x16x2048x4 ![] bcast_S_S4x16x2048x4 main_cst_2
  let main_v11 : IVec S4x16x2048x4 1 := cmpf .olt main_v9 main_v10
  let main_c_3 : IVec S_ 1 := constantI S_ 1 1#1
  let main_v12 : IVec S_ 1 := (fun x v => Host.reduce IntOp.andi x v reducesTo_S4x16x2048x4_S_d0_1_2_3 h_S_) main_v11 main_c_3
  let main_v13 : IVec S_ 1 := andi main_v8 main_v12
  main_v13
-- ==== Kernel.lean ====
abbrev S4x16x2048x4 : Shape := ⟨4, ![4, 16, 2048, 4]⟩
abbrev S4x2048x2048 : Shape := ⟨3, ![4, 2048, 2048]⟩
abbrev S4x16x4x2048 : Shape := ⟨4, ![4, 16, 4, 2048]⟩
abbrev S4x16x2048x2048 : Shape := ⟨4, ![4, 16, 2048, 2048]⟩
abbrev S1x1x512x4 : Shape := ⟨4, ![1, 1, 512, 4]⟩
abbrev S1x1x4x2048 : Shape := ⟨4, ![1, 1, 4, 2048]⟩
abbrev S1x512x2048 : Shape := ⟨3, ![1, 512, 2048]⟩
abbrev S1x1x512x2048 : Shape := ⟨4, ![1, 1, 512, 2048]⟩
abbrev S512x4 : Shape := ⟨2, ![512, 4]⟩
abbrev S4x2048 : Shape := ⟨2, ![4, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x16x2048x4, .f32⟩
  | .hbm, ⟨1, _⟩ => ⟨S4x16x2048x4, .f32⟩
  | .hbm, ⟨2, _⟩ => ⟨S4x16x2048x4, .f32⟩
  | .hbm, ⟨3, _⟩ => ⟨S4x2048x2048, .i32⟩
  | .hbm, ⟨4, _⟩ => ⟨S4x16x4x2048, .f32⟩
  | .hbm, ⟨5, _⟩ => ⟨S4x16x4x2048, .f32⟩
  | .hbm, ⟨6, _⟩ => ⟨S4x16x2048x4, .f32⟩
  | .hbm, ⟨7, _⟩ => ⟨S4x16x2048x2048, .f32⟩
  | .local _ .vmem, ⟨0, _⟩ => ⟨S1x1x512x4, .f32⟩
  | .local _ .vmem, ⟨1, _⟩ => ⟨S1x1x512x4, .f32⟩
  | .local _ .vmem, ⟨2, _⟩ => ⟨S1x1x4x2048, .f32⟩
  | .local _ .vmem, ⟨3, _⟩ => ⟨S1x1x4x2048, .f32⟩
  | .local _ .vmem, ⟨4, _⟩ => ⟨S1x1x4x2048, .f32⟩
  | .local _ .vmem, ⟨5, _⟩ => ⟨S1x1x4x2048, .f32⟩
  | .local _ .vmem, ⟨6, _⟩ => ⟨S1x512x2048, .i32⟩
  | .local _ .vmem, ⟨7, _⟩ => ⟨S1x512x2048, .i32⟩
  | .local _ .vmem, ⟨8, _⟩ => ⟨S1x1x512x4, .f32⟩
  | .local _ .vmem, ⟨9, _⟩ => ⟨S1x1x512x4, .f32⟩
  | .local _ .vmem, ⟨10, _⟩ => ⟨S1x1x512x2048, .f32⟩
  | .local _ .vmem, ⟨11, _⟩ => ⟨S1x1x512x2048, .f32⟩
  | _, _ => ⟨S4x16x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  transposes_S4x16x2048x4_S4x16x4x2048_0_1_3_2 : S4x16x2048x4.Transposes [0, 1, 3, 2] S4x16x4x2048
  inb_S1x1x512x4_S1x1x512x4_0_0_0_0 : ∀ a, (![0, 0, 0, 0] : Fin 4 → Nat) a + S1x1x512x4.size a ≤ S1x1x512x4.size a
  h_S1x1x512x4 : 0 < S1x1x512x4.numel
  shapeCasts_S1x1x512x4_S512x4 : S1x1x512x4.ShapeCasts S512x4
  bitsLt_bf16_f32 : FTy.bits .bf16 < FTy.bits .f32
  inb_S1x1x4x2048_S1x1x4x2048_0_0_0_0 : ∀ a, (![0, 0, 0, 0] : Fin 4 → Nat) a + S1x1x4x2048.size a ≤ S1x1x4x2048.size a
  h_S1x1x4x2048 : 0 < S1x1x4x2048.numel
  shapeCasts_S1x1x4x2048_S4x2048 : S1x1x4x2048.ShapeCasts S4x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x4_S1x1x512x4 : S512x4.ShapeCasts S1x1x512x4
  dot_S512x4_S4x2048_S512x2048_1_0_0_1_n_n_wf : DotDims.WF S512x4 S4x2048 S512x2048 [1] [0] [0] [1] [] []
  dot_S512x2048_S4x2048_S512x4_1_1_0_0_n_n_wf : DotDims.WF S512x2048 S4x2048 S512x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x4.size a ≤ S4x16x2048x4.size a
  hwx0_0 : ∀ i : grid0.Coords, EltTy.bits .f32 = 32 ∨ (Rect.block (s := S4x16x2048x4) S1x1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4x2048.size a ≤ S4x16x4x2048.size a
  hwx0_1 : ∀ i : grid0.Coords, EltTy.bits .f32 = 32 ∨ (Rect.block (s := S4x16x4x2048) S1x1x4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4x2048.size a ≤ S4x16x4x2048.size a
  hwx0_2 : ∀ i : grid0.Coords, EltTy.bits .f32 = 32 ∨ (Rect.block (s := S4x16x4x2048) S1x1x4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x2048x2048.size a
  hwx0_3 : ∀ i : grid0.Coords, EltTy.bits .i32 = 32 ∨ (Rect.block (s := S4x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x4.size a ≤ S4x16x2048x4.size a
  hwx0_4 : ∀ i : grid0.Coords, EltTy.bits .f32 = 32 ∨ (Rect.block (s := S4x16x2048x4) S1x1x512x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x4_S4x2048_S512x2048_1_0_0_1_n_n : DotDims S512x4 S4x2048 S512x2048 where
  lhsContracting := [1]
  rhsContracting := [0]
  lhsNonContracting := [0]
  rhsNonContracting := [1]
  lhsBatch := []
  rhsBatch := []
  wf := dot_S512x4_S4x2048_S512x2048_1_0_0_1_n_n_wf
def dot_S512x2048_S4x2048_S512x4_1_1_0_0_n_n : DotDims S512x2048 S4x2048 S512x4 where
  lhsContracting := [1]
  rhsContracting := [1]
  lhsNonContracting := [0]
  rhsNonContracting := [0]
  lhsBatch := []
  rhsBatch := []
  wf := dot_S512x2048_S4x2048_S512x4_1_1_0_0_n_n_wf

abbrev win0_0 : Pipeline.Window sig grid0 :=
  Pipeline.Window.ofSpec (Memref.whole main_arg0) S1x1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x512x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x4 : Shape := ⟨4, ![4, 16, 2048, 4]⟩
abbrev S4x2048x2048 : Shape := ⟨3, ![4, 2048, 2048]⟩
abbrev S_ : Shape := ⟨0, ![]⟩
abbrev S4x16x2048x2048 : Shape := ⟨4, ![4, 16, 2048, 2048]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x16x2048x4, .f32⟩
  | .hbm, ⟨1, _⟩ => ⟨S4x16x2048x4, .f32⟩
  | .hbm, ⟨2, _⟩ => ⟨S4x16x2048x4, .f32⟩
  | .hbm, ⟨3, _⟩ => ⟨S4x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S4x1x2048x2048, .i32⟩
  | .hbm, ⟨12, _⟩ => ⟨S_, .i32⟩
  | .hbm, ⟨13, _⟩ => ⟨S4x1x2048x2048, .i32⟩
  | .hbm, ⟨14, _⟩ => ⟨S4x1x2048x2048, .i1⟩
  | .hbm, ⟨15, _⟩ => ⟨S_, .f32⟩
  | .hbm, ⟨16, _⟩ => ⟨S4x16x2048x2048, .i1⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x4, .f32⟩
  | _, _ => ⟨S4x16x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x4_S4x16x2048x4_S4x16x2048x2048_3_3_2_2_01_01_wf : DotDims.WF S4x16x2048x4 S4x16x2048x4 S4x16x2048x2048 [3] [3] [2] [2] [0, 1] [0, 1]
  dot_S4x16x2048x2048_S4x16x2048x4_S4x16x2048x4_3_2_2_3_01_01_wf : DotDims.WF S4x16x2048x2048 S4x16x2048x4 S4x16x2048x4 [3] [2] [2] [3] [0, 1] [0, 1]

variable [Facts₀]

def dot_S4x16x2048x4_S4x16x2048x4_S4x16x2048x2048_3_3_2_2_01_01 : DotDims S4x16x2048x4 S4x16x2048x4 S4x16x2048x2048 where
  lhsContracting := [3]
  rhsContracting := [3]
  lhsNonContracting := [2]
  rhsNonContracting := [2]
  lhsBatch := [0, 1]
  rhsBatch := [0, 1]
  wf := dot_S4x16x2048x4_S4x16x2048x4_S4x16x2048x2048_3_3_2_2_01_01_wf
def dot_S4x16x2048x2048_S4x16x2048x4_S4x16x2048x4_3_2_2_3_01_01 : DotDims S4x16x2048x2048 S4x16x2048x4 S4x16x2048x4 where
  lhsContracting := [3]
  rhsContracting := [2]
  lhsNonContracting := [2]
  rhsNonContracting := [3]
  lhsBatch := [0, 1]
  rhsBatch := [0, 1]
  wf := dot_S4x16x2048x2048_S4x16x2048x4_S4x16x2048x4_3_2_2_3_01_01_wf

class Facts : Prop extends Facts₀ where

variable [Facts]
-- ==== Proof.Attn.Spec.lean ====
/-
  Masked softmax attention over one head: the mathematics both programs are compared against.

  For a query row q and key rows k (four features each) the raw score is the dot product of the
  two rows.  One program halves every query feature before the product, the other multiplies the
  finished dot product by 1 / sqrt 4; on real entries these agree because 1 / sqrt 4 = 1 / 2 and
  multiplication distributes over the finite sum.  A masked position (mask word 0) replaces the
  score by the finite sentinel -1e9.  The row is then normalised: subtract the row maximum,
  exponentiate, divide by the row's sum of exponentials.  The output is the weighted sum of the
  value rows.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Queries, keys, values and the output: batch × head × position × feature. -/
abbrev QKV : Shape := ⟨4, ![4, 16, 2048, 4]⟩
/-- The mask: batch × query position × key position. -/
abbrev MSK : Shape := ⟨3, ![4, 2048, 2048]⟩
/-- The attention weights: batch × head × query position × key position. -/
abbrev ATT : Shape := ⟨4, ![4, 16, 2048, 2048]⟩

/-- The pattern of minus infinity, the neutral element both row maxima start from. -/
def negInf : EReal := Ideal.ofBits .f32 0xFF800000#32
/-- The finite sentinel -1e9 written at masked positions. -/
def negBig : EReal := Ideal.ofBits .f32 0xCE6E6B28#32
/-- The pattern of one half. -/
def half : EReal := Ideal.ofBits .f32 0x3F000000#32
/-- 1 / sqrt 4 as the reference spells it: the quotient of the patterns of 1 and of sqrt 4. -/
def invSqrt4 : EReal := Ideal.div (Ideal.ofBits .f32 0x3F800000#32) (Ideal.sqrt (Ideal.ofBits .f32 0x40800000#32))

/-- The maximum of a row, folded from minus infinity. -/
def rowMax (s : Fin 2048 → EReal) : EReal := (Finset.univ : Finset (Fin 2048)).fold max negInf s

/-- Softmax of a row of scores, at position `k`. -/
def smRow (s : Fin 2048 → EReal) (k : Fin 2048) : EReal :=
  Ideal.div (Ideal.exp (s k - rowMax s)) (∑ k' : Fin 2048, Ideal.exp (s k' - rowMax s))

/-- A masked position (mask word zero) takes the sentinel, any other keeps its score. -/
def maskSel (w : BitVec 32) (x : EReal) : EReal := Scalar.select (IntOp.cmpi .eq w 0#32) negBig x

/-- The score with each query feature halved before the product. -/
def scoreK (q k : Fin 4 → EReal) : EReal := ∑ d : Fin 4, (q d * half) * k d
/-- The score with the dot product scaled by 1 / sqrt 4 afterwards. -/
def scoreR (q k : Fin 4 → EReal) : EReal := (∑ d : Fin 4, q d * k d) * invSqrt4

theorem half_eq : half = ((1 / 2 : ℝ) : EReal) := by
  unfold half
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem sqrt_four : Real.sqrt 4 = 2 := by
  rw [show (4 : ℝ) = 2 ^ 2 by norm_num]
  exact Real.sqrt_sq (by norm_num)

/-- 1 / sqrt 4 is one half. -/
theorem invSqrt4_eq : invSqrt4 = ((1 / 2 : ℝ) : EReal) := by
  unfold invSqrt4
  rw [ofBits_four, ofBits_one, Ideal.sqrt_coe, if_neg (by norm_num), sqrt_four,
    Ideal.div_coe (by norm_num : (2 : ℝ) ≠ 0), ← EReal.coe_mul]
  norm_num

/-- On real rows the two scores agree: halving each query feature first, or the whole dot product
    afterwards, is the same real number. -/
theorem score_eq (q k : Fin 4 → EReal) (hq : ∀ d, ∃ r : ℝ, q d = (r : EReal)) (hk : ∀ d, ∃ r : ℝ, k d = (r : EReal)) :
    scoreK q k = scoreR q k := by
  choose qr hqr using hq
  choose kr hkr using hk
  unfold scoreK scoreR
  rw [half_eq, invSqrt4_eq]
  simp only [Fin.sum_univ_four, hqr, hkr, ← EReal.coe_mul, ← EReal.coe_add]
  congr 1
  ring

/-- The maximum with the fold's own starting value changes nothing. -/
theorem max_negInf_rowMax (s : Fin 2048 → EReal) : max negInf (rowMax s) = rowMax s :=
  max_eq_right ((Finset.le_fold_max _).mpr (Or.inl le_rfl))

/-- The masked, scaled scores of query position `q` of head `(b, h)` against every key position. -/
def attnRow (Q K : QKV.Idx → EReal) (M : MSK.Idx → BitVec 32) (b : Fin 4) (h : Fin 16) (q : Fin 2048) : Fin 2048 → EReal :=
  fun k => maskSel (M (ix3 b q k)) (scoreK (fun d => Q (ix4 b h q d)) (fun d => K (ix4 b h k d)))

/-- One grid point's blocks: 512 query rows of one head, that head's keys and values with the
    feature axis before the position axis, and the mask rows of those queries. -/
abbrev QB : Shape := ⟨4, ![1, 1, 512, 4]⟩
abbrev KB : Shape := ⟨4, ![1, 1, 4, 2048]⟩
abbrev MB : Shape := ⟨3, ![1, 512, 2048]⟩

/-- The masked, scaled scores of row `r` of a query block against every key position, read from
    the blocks of one grid point. -/
def blockRow (x0 : QB.Idx → EReal) (x1 : KB.Idx → EReal) (x3 : MB.Idx → BitVec 32) (r : Fin 512) : Fin 2048 → EReal :=
  fun k => maskSel (x3 (ix3 0 r k)) (scoreK (fun d => x0 (ix4 0 0 r d)) (fun d => x1 (ix4 0 0 d k)))

/-- The attention weights. -/
def attn (Q K : QKV.Idx → EReal) (M : MSK.Idx → BitVec 32) : ATT.Idx → EReal :=
  fun i => smRow (attnRow Q K M (i 0) (i 1) (i 2)) (i 3)

/-- The attention output: the weights applied to the value rows. -/
def out (Q K V : QKV.Idx → EReal) (M : MSK.Idx → BitVec 32) : QKV.Idx → EReal :=
  fun i => ∑ k : Fin 2048, attn Q K M (ix4 (i 0) (i 1) (i 2) k) * V (ix4 (i 0) (i 1) k (i 3))

end Cert.Attn

end
-- ==== Proof.Attn.Blocks.lean ====
/-
  Where each grid point's blocks sit in the whole arrays.

  The grid has 4 × 4 × 16 points (batch, query tile, head).  At a point the query block is rows
  512·tile … 512·tile + 511 of one head, the key and value blocks are that head's whole (feature ×
  position) arrays, the mask block is the same 512 query rows of the batch, and the two output blocks
  sit where the query block does.  The relations between the printed index maps are decided once over
  the 256 points; every block read below is then arithmetic on coordinates.
-/
import proofs.«410448_j65481071395643_3_alg».proof.Proof.Gen.KernelIdeal.Value
import proofs.«410448_j65481071395643_3_alg».proof.Proof.Attn.Spec
import Idealize.ShloMosaic.Lib.Pipeline.Value
import Idealize.ShloMosaic.Lib.ValueIdx
import Idealize.ShloMosaic.Lib.StableHlo.Run

set_option maxRecDepth 16384

noncomputable section

namespace Cert.Attn.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The index maps, decided over the grid: the query block and both output blocks share one block
    index (batch, head, tile, 0); the key and value blocks are at (batch, head, 0, 0); the mask block
    at (batch, tile, 0). -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 3) = win0_5.index t (0 : Fin 4) ∧ win0_3.index t (1 : Fin 3) = win0_5.index t (2 : Fin 4)
    ∧ win0_3.index t (2 : Fin 3) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (0 : Fin 4) ≤ 3 ∧ win0_5.index t (1 : Fin 4) ≤ 15 ∧ win0_5.index t (2 : Fin 4) ≤ 3
    ∧ win0_5.index t (3 : Fin 4) = 0 :=
  (by decide +kernel : ∀ t : Fin grid0.N, _)

/-- The grid point of batch `b`, head `h` and query tile `q` (the head axis runs fastest). -/
def pt (b : Fin 4) (h : Fin 16) (q : Fin 4) : Fin cfg0.N := ⟨b.val * 64 + q.val * 16 + h.val, by
  have := b.isLt; have := h.isLt; have := q.isLt; show _ < 256; omega⟩

/-- Its block index. -/
theorem pt_index : ∀ (b : Fin 4) (h : Fin 16) (q : Fin 4),
    win0_5.index (pt b h q) (0 : Fin 4) = b.val ∧ win0_5.index (pt b h q) (1 : Fin 4) = h.val
    ∧ win0_5.index (pt b h q) (2 : Fin 4) = q.val := by
  decide +kernel

/-- The query block's element is the query array's at the block's place. -/
theorem blk0_at (c : Dev nD) (t : Fin cfg0.N) (y : S1x1x512x4.Idx) :
    iblk m c 0 t y = m ((c : Thread nD τ).loc main_arg0) (((cfg0.win 0).blk t).view.emb y) := by
  show V m c main_arg0 (((cfg0.win 0).blk t).view.emb y) = _
  rw [V_main_arg0]

/-- The mask block's element is the mask array's at the block's place. -/
theorem blk3_at (c : Dev nD) (t : Fin cfg0.N) (y : S1x512x2048.Idx) :
    iblk m c 3 t y = m ((c : Thread nD τ).loc main_arg3) (((cfg0.win 3).blk t).view.emb y) := by
  show V m c main_arg3 (((cfg0.win 3).blk t).view.emb y) = _
  rw [V_main_arg3]

/-- The key array as the region finds it is the transpose (feature axis before position axis) of the
    launched keys. -/
theorem kt_eq (c : Dev nD) : (V m c main_v0 : S4x16x4x2048.Idx → EReal)
    = transpose S4x16x4x2048 [0, 1, 3, 2] (m ((c : Thread nD τ).loc main_arg1)) transposes_S4x16x2048x4_S4x16x4x2048_0_1_3_2 := by
  dsimp only [Gen.V, Gen.hostOps0]; after_results

/-- Read at (batch, head, feature, position) it is the keys at (batch, head, position, feature). -/
theorem kt_at (c : Dev nD) (b : Fin 4) (h : Fin 16) (d : Fin 4) (k : Fin 2048) :
    (V m c main_v0 : S4x16x4x2048.Idx → EReal) (ix4 b h d k) = m ((c : Thread nD τ).loc main_arg1) (ix4 b h k d) := by
  rw [kt_eq]
  exact transpose_apply _ _ _ (ix4 b h d k) (ix4 b h k d) (fun a => match a with
    | ⟨0, _⟩ => rfl | ⟨1, _⟩ => rfl | ⟨2, _⟩ => rfl | ⟨3, _⟩ => rfl)

/-- The key block's element is the region-entry key array's at the block's place. -/
theorem blk1_at (c : Dev nD) (t : Fin cfg0.N) (y : S1x1x4x2048.Idx) :
    iblk m c 1 t y = (V m c main_v0 : S4x16x4x2048.Idx → EReal) (((cfg0.win 1).blk t).view.emb y) := rfl

/-- At a point, row `r` of the scores computed from the point's blocks is the row of the whole arrays at the
    place `e` where the point's output block puts it. -/
theorem row_eq (c : Dev nD) (t : Fin cfg0.N) (r : Fin 512) (e : S4x16x2048x2048.Idx)
    (he0 : (e 0).val = win0_5.index t (0 : Fin 4)) (he1 : (e 1).val = win0_5.index t (1 : Fin 4))
    (he2 : (e 2).val = win0_5.index t (2 : Fin 4) * 512 + r.val) :
    Cert.Attn.blockRow (iblk m c 0 t) (iblk m c 1 t) (iblk m c 3 t) r
      = Cert.Attn.attnRow (m ((c : Thread nD τ).loc main_arg0)) (m ((c : Thread nD τ).loc main_arg1)) (m ((c : Thread nD τ).loc main_arg3)) (e 0) (e 1) (e 2) := by
  obtain ⟨f00, f01, f02, f03, f10, f11, f12, f13, f20, f21, f22, f23, f30, f31, f32, f40, f41, f42, f43, b0, b1, b2, f53⟩ := idx_facts t
  funext k
  unfold Cert.Attn.blockRow Cert.Attn.attnRow
  have hm : iblk m c 3 t (ix3 0 r k) = m ((c : Thread nD τ).loc main_arg3) (ix3 (e 0) (e 2) k) := by
    rw [blk3_at]
    refine congrArg _ (funext fun a => Fin.ext ?_)
    match a with
    | ⟨0, _⟩ => show win0_3.index t (0 : Fin 3) * 1 + 1 * 0 = (e 0).val; omega
    | ⟨1, _⟩ => show win0_3.index t (1 : Fin 3) * 512 + 1 * r.val = (e 2).val; omega
    | ⟨2, _⟩ => show win0_3.index t (2 : Fin 3) * 2048 + 1 * k.val = k.val; omega
  have hq : ∀ d : Fin 4, iblk m c 0 t (ix4 0 0 r d) = m ((c : Thread nD τ).loc main_arg0) (ix4 (e 0) (e 1) (e 2) d) := by
    intro d
    rw [blk0_at]
    refine congrArg _ (funext fun a => Fin.ext ?_)
    match a with
    | ⟨0, _⟩ => show win0_0.index t (0 : Fin 4) * 1 + 1 * 0 = (e 0).val; omega
    | ⟨1, _⟩ => show win0_0.index t (1 : Fin 4) * 1 + 1 * 0 = (e 1).val; omega
    | ⟨2, _⟩ => show win0_0.index t (2 : Fin 4) * 512 + 1 * r.val = (e 2).val; omega
    | ⟨3, _⟩ => show win0_0.index t (3 : Fin 4) * 4 + 1 * d.val = d.val; omega
  have hk : ∀ d : Fin 4, iblk m c 1 t (ix4 0 0 d k) = m ((c : Thread nD τ).loc main_arg1) (ix4 (e 0) (e 1) k d) := by
    intro d
    rw [blk1_at]
    refine Eq.trans ?_ (kt_at m c (e 0) (e 1) d k)
    refine congrArg _ (funext fun a => Fin.ext ?_)
    match a with
    | ⟨0, _⟩ => show win0_1.index t (0 : Fin 4) * 1 + 1 * 0 = (e 0).val; omega
    | ⟨1, _⟩ => show win0_1.index t (1 : Fin 4) * 1 + 1 * 0 = (e 1).val; omega
    | ⟨2, _⟩ => show win0_1.index t (2 : Fin 4) * 4 + 1 * d.val = d.val; omega
    | ⟨3, _⟩ => show win0_1.index t (3 : Fin 4) * 2048 + 1 * k.val = k.val; omega
  simp only [hm, hq, hk]

/-- The value array as the region finds it is likewise the transpose of the launched values. -/
theorem vt_eq (c : Dev nD) : (V m c main_v1 : S4x16x4x2048.Idx → EReal)
    = transpose S4x16x4x2048 [0, 1, 3, 2] (m ((c : Thread nD τ).loc main_arg2)) transposes_S4x16x2048x4_S4x16x4x2048_0_1_3_2 := by
  dsimp only [Gen.V, Gen.hostOps0]; after_results

theorem vt_at (c : Dev nD) (b : Fin 4) (h : Fin 16) (d : Fin 4) (k : Fin 2048) :
    (V m c main_v1 : S4x16x4x2048.Idx → EReal) (ix4 b h d k) = m ((c : Thread nD τ).loc main_arg2) (ix4 b h k d) := by
  rw [vt_eq]
  exact transpose_apply _ _ _ (ix4 b h d k) (ix4 b h k d) (fun a => match a with
    | ⟨0, _⟩ => rfl | ⟨1, _⟩ => rfl | ⟨2, _⟩ => rfl | ⟨3, _⟩ => rfl)

/-- The value block's element at (feature, position) is the launched values' at the head the point works on. -/
theorem vblk_eq (c : Dev nD) (t : Fin cfg0.N) (d : Fin 4) (k : Fin 2048) (e0 : Fin 4) (e1 : Fin 16)
    (he0 : e0.val = win0_5.index t (0 : Fin 4)) (he1 : e1.val = win0_5.index t (1 : Fin 4)) :
    iblk m c 2 t (ix4 0 0 d k) = m ((c : Thread nD τ).loc main_arg2) (ix4 e0 e1 k d) := by
  obtain ⟨f00, f01, f02, f03, f10, f11, f12, f13, f20, f21, f22, f23, f30, f31, f32, f40, f41, f42, f43, b0, b1, b2, f53⟩ := idx_facts t
  show (V m c main_v1 : S4x16x4x2048.Idx → EReal) (((cfg0.win 2).blk t).view.emb (ix4 0 0 d k)) = _
  refine Eq.trans ?_ (vt_at m c e0 e1 d k)
  refine congrArg _ (funext fun a => Fin.ext ?_)
  match a with
  | ⟨0, _⟩ => show win0_2.index t (0 : Fin 4) * 1 + 1 * 0 = e0.val; omega
  | ⟨1, _⟩ => show win0_2.index t (1 : Fin 4) * 1 + 1 * 0 = e1.val; omega
  | ⟨2, _⟩ => show win0_2.index t (2 : Fin 4) * 4 + 1 * d.val = d.val; omega
  | ⟨3, _⟩ => show win0_2.index t (3 : Fin 4) * 2048 + 1 * k.val = k.val; omega

end Cert.Attn.Blocks

end
-- ==== Proof.Attn.KerPay.lean ====
/-
  The kernel's arithmetic read at one index.  For one grid point the body computes, from a query
  block, a key block, a value block (the last two with the feature axis before the position axis)
  and a mask block: the halved-query scores, the masked scores, their row-wise softmax, and the
  product of the softmax rows with the value block.  Each step is read here at explicit
  coordinates, ending in the two statements: the stored weights at (r, k) are the softmax of row r
  of the block's masked scores at k, and the stored output at (r, d) is the sum over k of those
  weights times the value block at (d, k).
-/
import proofs.«410448_j65481071395643_3_alg».proof.Proof.Gen.KernelIdeal.Skeleton
import proofs.«410448_j65481071395643_3_alg».proof.Proof.Attn.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Ker

open Cert.KernelIdeal Cert.KernelIdeal.Gen
open Idealize.ShloMosaic Idealize.ShloMosaic.ValueIdx

/-! ## The score product: rows of the query block against columns of the key block -/

theorem lhsA_0 (j : S512x2048.Idx) (q : dot_S512x4_S4x2048_S512x2048_1_0_0_1_n_n.contr.Idx) :
    (dot_S512x4_S4x2048_S512x2048_1_0_0_1_n_n.lhsIdx j q 0).val = (j 0).val := by
  unfold DotDims.lhsIdx
  rw [dif_neg (show ¬(0 : Fin S512x4.rank) ∈ dot_S512x4_S4x2048_S512x2048_1_0_0_1_n_n.lhsBatch by decide), dif_pos (show (0 : Fin S512x4.rank) ∈ dot_S512x4_S4x2048_S512x2048_1_0_0_1_n_n.lhsNonContracting by decide)]
  rfl
theorem lhsA_1 (j : S512x2048.Idx) (q : dot_S512x4_S4x2048_S512x2048_1_0_0_1_n_n.contr.Idx) :
    (dot_S512x4_S4x2048_S512x2048_1_0_0_1_n_n.lhsIdx j q 1).val = (q ⟨0, by decide⟩).val :=
  dot_S512x4_S4x2048_S512x2048_1_0_0_1_n_n.lhsIdx_val_of_single rfl j q
theorem rhsA_0 (j : S512x2048.Idx) (q : dot_S512x4_S4x2048_S512x2048_1_0_0_1_n_n.contr.Idx) :
    (dot_S512x4_S4x2048_S512x2048_1_0_0_1_n_n.rhsIdx j q 0).val = (q ⟨0, by decide⟩).val :=
  dot_S512x4_S4x2048_S512x2048_1_0_0_1_n_n.rhsIdx_val_of_single rfl j q
theorem rhsA_1 (j : S512x2048.Idx) (q : dot_S512x4_S4x2048_S512x2048_1_0_0_1_n_n.contr.Idx) :
    (dot_S512x4_S4x2048_S512x2048_1_0_0_1_n_n.rhsIdx j q 1).val = (j 1).val := by
  unfold DotDims.rhsIdx
  rw [dif_neg (show ¬(1 : Fin S4x2048.rank) ∈ dot_S512x4_S4x2048_S512x2048_1_0_0_1_n_n.rhsBatch by decide), dif_pos (show (1 : Fin S4x2048.rank) ∈ dot_S512x4_S4x2048_S512x2048_1_0_0_1_n_n.rhsNonContracting by decide)]
  rfl

/-- The first product at (r, k): the sum over the four features of the left operand at (r, d)
    times the right operand at (d, k). -/
theorem matmulA_at (a : FVec Ideal S512x4 .bf16) (b : FVec Ideal S4x2048 .bf16) (r : Fin 512) (k : Fin 2048) :
    matmul (F := Ideal) dot_S512x4_S4x2048_S512x2048_1_0_0_1_n_n none a b (constant S512x2048 .f32 0x00000000#32) (ix2 r k)
      = ∑ d : Fin 4, a (ix2 r d) * b (ix2 d k) := by
  simp only [matmul]
  rw [Ideal.matmul_constant_zero_apply, ← Equiv.sum_comp (ValueIdx.contrEquiv1 dot_S512x4_S4x2048_S512x2048_1_0_0_1_n_n 4 rfl rfl).symm]
  refine Finset.sum_congr rfl fun d _ => ?_
  have hk := ValueIdx.contrEquiv1_symm_val dot_S512x4_S4x2048_S512x2048_1_0_0_1_n_n 4 rfl rfl d
  have el : dot_S512x4_S4x2048_S512x2048_1_0_0_1_n_n.lhsIdx (ix2 r k) ((ValueIdx.contrEquiv1 dot_S512x4_S4x2048_S512x2048_1_0_0_1_n_n 4 rfl rfl).symm d) = ix2 r d := funext fun x => Fin.ext (by
    match x with
    | ⟨0, _⟩ => exact lhsA_0 _ _
    | ⟨1, _⟩ => exact (lhsA_1 _ _).trans hk)
  have er : dot_S512x4_S4x2048_S512x2048_1_0_0_1_n_n.rhsIdx (ix2 r k) ((ValueIdx.contrEquiv1 dot_S512x4_S4x2048_S512x2048_1_0_0_1_n_n 4 rfl rfl).symm d) = ix2 d k := funext fun x => Fin.ext (by
    match x with
    | ⟨0, _⟩ => exact (rhsA_0 _ _).trans hk
    | ⟨1, _⟩ => exact rhsA_1 _ _)
  rw [el, er]

/-! ## The layout steps read at explicit coordinates -/

/-- The query block with its two unit axes dropped, at (r, d). -/
theorem castQ_at (x0 : Vec Ideal S1x1x512x4 .f32) (r : Fin 512) (d : Fin 4) :
    shapeCast S512x4 x0 shapeCasts_S1x1x512x4_S512x4 (ix2 r d) = x0 (ix4 0 0 r d) :=
  shapeCast_apply x0 _ _ _ (by
    rw [Shape.rowMajor_val_four, Shape.rowMajor_val_two]
    show ((0 * 1 + 0) * 512 + r.val) * 4 + d.val = r.val * 4 + d.val
    omega)

/-- The key (or value) block with its two unit axes dropped, at (d, k). -/
theorem castK_at (x1 : Vec Ideal S1x1x4x2048 .f32) (d : Fin 4) (k : Fin 2048) :
    shapeCast S4x2048 x1 shapeCasts_S1x1x4x2048_S4x2048 (ix2 d k) = x1 (ix4 0 0 d k) :=
  shapeCast_apply x1 _ _ _ (by
    rw [Shape.rowMajor_val_four, Shape.rowMajor_val_two]
    show ((0 * 1 + 0) * 4 + d.val) * 2048 + k.val = d.val * 2048 + k.val
    omega)

/-- The mask block with its unit axis dropped, at (r, k). -/
theorem castM_at (x3 : Vec Ideal S1x512x2048 .i32) (r : Fin 512) (k : Fin 2048) :
    shapeCast S512x2048 x3 shapeCasts_S1x512x2048_S512x2048 (ix2 r k) = x3 (ix3 0 r k) :=
  shapeCast_apply x3 _ _ _ (by
    rw [Shape.rowMajor_val_three, Shape.rowMajor_val_two]
    show (0 * 512 + r.val) * 2048 + k.val = r.val * 2048 + k.val
    omega)

/-- A column of 512 row values spread over the 2048 positions of each row reads, at (r, k), the
    value of row r. -/
theorem col_at (v : FVec Ideal S512 .f32) (r : Fin 512) (k : Fin 2048) :
    broadcastTo S512x2048 (shapeCast S512x1 v shapeCasts_S512_S512x1) broadcasts_S512x1_S512x2048 (ix2 r k)
      = v (ix1 r) := by
  refine (broadcastTo_apply _ broadcasts_S512x1_S512x2048 (ix2 r k) (ix2 r (0 : Fin 1)) fun a => ?_).trans ?_
  · match a with
    | ⟨0, _⟩ => rfl
    | ⟨1, _⟩ => rfl
  · exact shapeCast_apply v _ _ _ (by
      rw [Shape.rowMajor_val_one, Shape.rowMajor_val_two]
      show r.val = r.val * 1 + 0
      omega)

/-- The inserted index of a row reduction: row r with position k put back. -/
theorem lift_row (r : Fin 512) (k : Fin 2048) :
    reduces_S512x2048_S512.lift (ix1 r) k = ix2 r k := by
  funext a
  match a with
  | ⟨0, _⟩ => rfl
  | ⟨1, _⟩ => rfl

/-- The row maximum from minus infinity, at row r. -/
theorem rowmax_at (src : FVec Ideal S512x2048 .f32) (r : Fin 512) :
    multiReduction (F := Ideal) .maximumf [1] S512 src 0xFF800000#32 reduces_S512x2048_S512 (.inl rfl) rfl (ix1 r)
      = Cert.Attn.rowMax (fun k => src (ix2 r k)) := by
  refine (Ideal.multiReduction_maximumf_single src _ reduces_S512x2048_S512 _ _ (ix1 r)).trans ?_
  have e : (src ∘ reduces_S512x2048_S512.lift (ix1 r)) = fun k : Fin 2048 => src (ix2 r k) :=
    funext fun k => congrArg src (lift_row r k)
  rw [e]
  rfl

/-- The row sum, at row r. -/
theorem rowsum_at (src : FVec Ideal S512x2048 .f32) (r : Fin 512) :
    multiReduction (F := Ideal) .add [1] S512 src 0x00000000#32 reduces_S512x2048_S512 (.inl rfl) rfl (ix1 r)
      = ∑ k : Fin 2048, src (ix2 r k) := by
  refine (Ideal.multiReduction_add_single src _ reduces_S512x2048_S512 _ _ (ix1 r)).trans ?_
  exact Finset.sum_congr rfl fun k _ => congrArg src (lift_row r k)

/-! ## The masked scores and their row softmax -/

/-- The exponential of a vector, at an index. -/
theorem exp_at {s : Shape} (a : FVec Ideal s .f32) (i : s.Idx) : exp a i = Ideal.exp (a i) := rfl

/-- The masked scores as the body builds them: the halved query block times the key block, with
    the sentinel written where the mask word is zero. -/
def masked (x0 : Vec Ideal S1x1x512x4 .f32) (x1 : Vec Ideal S1x1x4x2048 .f32) (x3 : Vec Ideal S1x512x2048 .i32) :
    FVec Ideal S512x2048 .f32 :=
  select (cmpi .eq (shapeCast S512x2048 x3 shapeCasts_S1x512x2048_S512x2048) (broadcast S512x2048 0#32))
    (broadcast S512x2048 (Scalar.ofBits (F := Ideal) .f32 0xCE6E6B28#32))
    (matmul (F := Ideal) dot_S512x4_S4x2048_S512x2048_1_0_0_1_n_n none
      (truncf .bf16 (mulf (shapeCast S512x4 x0 shapeCasts_S1x1x512x4_S512x4)
        (broadcast S512x4 (Scalar.ofBits (F := Ideal) .f32 0x3F000000#32))) bitsLt_bf16_f32)
      (truncf .bf16 (shapeCast S4x2048 x1 shapeCasts_S1x1x4x2048_S4x2048) bitsLt_bf16_f32)
      (constant S512x2048 .f32 0x00000000#32))

/-- At (r, k) they are row r of the block's masked scores at k. -/
theorem masked_at (x0 : Vec Ideal S1x1x512x4 .f32) (x1 : Vec Ideal S1x1x4x2048 .f32) (x3 : Vec Ideal S1x512x2048 .i32)
    (r : Fin 512) (k : Fin 2048) :
    masked x0 x1 x3 (ix2 r k) = Cert.Attn.blockRow x0 x1 x3 r k := by
  unfold masked Cert.Attn.blockRow Cert.Attn.maskSel Cert.Attn.scoreK
  rw [select_apply, matmulA_at]
  have hm : cmpi .eq (shapeCast S512x2048 x3 shapeCasts_S1x512x2048_S512x2048) (broadcast S512x2048 0#32) (ix2 r k)
      = IntOp.cmpi .eq (x3 (ix3 0 r k)) 0#32 := by
    show IntOp.cmpi .eq (shapeCast S512x2048 x3 shapeCasts_S1x512x2048_S512x2048 (ix2 r k)) 0#32 = _
    rw [castM_at]
  rw [hm]
  have hs : ∀ d : Fin 4,
      (truncf .bf16 (mulf (shapeCast S512x4 x0 shapeCasts_S1x1x512x4_S512x4)
        (broadcast S512x4 (Scalar.ofBits (F := Ideal) .f32 0x3F000000#32))) bitsLt_bf16_f32 : FVec Ideal S512x4 .bf16) (ix2 r d)
        * (truncf .bf16 (shapeCast S4x2048 x1 shapeCasts_S1x1x4x2048_S4x2048) bitsLt_bf16_f32 : FVec Ideal S4x2048 .bf16) (ix2 d k)
      = (x0 (ix4 0 0 r d) * Cert.Attn.half) * x1 (ix4 0 0 d k) := by
    intro d
    rw [truncf_apply, truncf_apply, mulf_apply, castQ_at, castK_at]
    rfl
  rw [Finset.sum_congr rfl fun d _ => hs d]
  rfl

/-- The row softmax as the body builds it from a vector of scores. -/
def soft (m : FVec Ideal S512x2048 .f32) : FVec Ideal S512x2048 .f32 :=
  divf
    (exp (subf m (broadcastTo S512x2048 (shapeCast S512x1
      (multiReduction (F := Ideal) .maximumf [1] S512 m 0xFF800000#32 reduces_S512x2048_S512 (.inl rfl) rfl)
      shapeCasts_S512_S512x1) broadcasts_S512x1_S512x2048)))
    (broadcastTo S512x2048 (shapeCast S512x1
      (multiReduction (F := Ideal) .add [1] S512
        (exp (subf m (broadcastTo S512x2048 (shapeCast S512x1
          (multiReduction (F := Ideal) .maximumf [1] S512 m 0xFF800000#32 reduces_S512x2048_S512 (.inl rfl) rfl)
          shapeCasts_S512_S512x1) broadcasts_S512x1_S512x2048)))
        0x00000000#32 reduces_S512x2048_S512 (.inl rfl) rfl)
      shapeCasts_S512_S512x1) broadcasts_S512x1_S512x2048)

/-- The shifted exponentials at (r, k). -/
theorem expShift_at (m : FVec Ideal S512x2048 .f32) (r : Fin 512) (k : Fin 2048) :
    exp (subf m (broadcastTo S512x2048 (shapeCast S512x1
      (multiReduction (F := Ideal) .maximumf [1] S512 m 0xFF800000#32 reduces_S512x2048_S512 (.inl rfl) rfl)
      shapeCasts_S512_S512x1) broadcasts_S512x1_S512x2048)) (ix2 r k)
      = Ideal.exp (m (ix2 r k) - Cert.Attn.rowMax (fun k' => m (ix2 r k'))) := by
  rw [exp_at, subf_apply, col_at, rowmax_at]

/-- At (r, k) it is the softmax of row r at k. -/
theorem soft_at (m : FVec Ideal S512x2048 .f32) (r : Fin 512) (k : Fin 2048) :
    soft m (ix2 r k) = Cert.Attn.smRow (fun k' => m (ix2 r k')) k := by
  unfold soft Cert.Attn.smRow
  rw [divf_apply, col_at, rowsum_at, expShift_at]
  exact congrArg _ (Finset.sum_congr rfl fun k' _ => expShift_at m r k')

/-- The softmax payload is the row softmax of the masked scores. -/
theorem pay2_eq (x0 : Vec Ideal S1x1x512x4 .f32) (x1 : Vec Ideal S1x1x4x2048 .f32) (x3 : Vec Ideal S1x512x2048 .i32) :
    k0_pay2 (F := Ideal) x0 x1 x3 = soft (masked x0 x1 x3) := rfl

/-- The softmax payload at (r, k). -/
theorem pay2_at (x0 : Vec Ideal S1x1x512x4 .f32) (x1 : Vec Ideal S1x1x4x2048 .f32) (x3 : Vec Ideal S1x512x2048 .i32)
    (r : Fin 512) (k : Fin 2048) :
    k0_pay2 (F := Ideal) x0 x1 x3 (ix2 r k) = Cert.Attn.smRow (Cert.Attn.blockRow x0 x1 x3 r) k := by
  rw [pay2_eq, soft_at]
  have e : (fun k' => masked x0 x1 x3 (ix2 r k')) = Cert.Attn.blockRow x0 x1 x3 r :=
    funext fun k' => masked_at x0 x1 x3 r k'
  rw [e]

/-! ## The stored weights -/

/-- A 512 × 2048 vector given two leading unit axes, at (0, 0, r, k). -/
theorem castW_at (y : FVec Ideal S512x2048 .f32) (r : Fin 512) (k : Fin 2048) :
    shapeCast S1x1x512x2048 y shapeCasts_S512x2048_S1x1x512x2048 (ix4 0 0 r k) = y (ix2 r k) :=
  shapeCast_apply y _ _ _ (by
    rw [Shape.rowMajor_val_two, Shape.rowMajor_val_four]
    show r.val * 2048 + k.val = ((0 * 1 + 0) * 512 + r.val) * 2048 + k.val
    omega)

/-- The stored weights at (r, k): the softmax of row r of the block's masked scores, at k. -/
theorem pay3_at (x0 : Vec Ideal S1x1x512x4 .f32) (x1 : Vec Ideal S1x1x4x2048 .f32) (x3 : Vec Ideal S1x512x2048 .i32)
    (r : Fin 512) (k : Fin 2048) :
    k0_pay3 (F := Ideal) x0 x1 x3 (ValueIdx.ix4 0 0 r k) = Cert.Attn.smRow (Cert.Attn.blockRow x0 x1 x3 r) k := by
  unfold k0_pay3
  exact (castW_at _ r k).trans (pay2_at x0 x1 x3 r k)

/-! ## The output product: softmax rows against rows of the value block -/

theorem lhsB_0 (j : S512x4.Idx) (q : dot_S512x2048_S4x2048_S512x4_1_1_0_0_n_n.contr.Idx) :
    (dot_S512x2048_S4x2048_S512x4_1_1_0_0_n_n.lhsIdx j q 0).val = (j 0).val := by
  unfold DotDims.lhsIdx
  rw [dif_neg (show ¬(0 : Fin S512x2048.rank) ∈ dot_S512x2048_S4x2048_S512x4_1_1_0_0_n_n.lhsBatch by decide), dif_pos (show (0 : Fin S512x2048.rank) ∈ dot_S512x2048_S4x2048_S512x4_1_1_0_0_n_n.lhsNonContracting by decide)]
  rfl
theorem lhsB_1 (j : S512x4.Idx) (q : dot_S512x2048_S4x2048_S512x4_1_1_0_0_n_n.contr.Idx) :
    (dot_S512x2048_S4x2048_S512x4_1_1_0_0_n_n.lhsIdx j q 1).val = (q ⟨0, by decide⟩).val :=
  dot_S512x2048_S4x2048_S512x4_1_1_0_0_n_n.lhsIdx_val_of_single rfl j q
theorem rhsB_0 (j : S512x4.Idx) (q : dot_S512x2048_S4x2048_S512x4_1_1_0_0_n_n.contr.Idx) :
    (dot_S512x2048_S4x2048_S512x4_1_1_0_0_n_n.rhsIdx j q 0).val = (j 1).val := by
  unfold DotDims.rhsIdx
  rw [dif_neg (show ¬(0 : Fin S4x2048.rank) ∈ dot_S512x2048_S4x2048_S512x4_1_1_0_0_n_n.rhsBatch by decide), dif_pos (show (0 : Fin S4x2048.rank) ∈ dot_S512x2048_S4x2048_S512x4_1_1_0_0_n_n.rhsNonContracting by decide)]
  rfl
theorem rhsB_1 (j : S512x4.Idx) (q : dot_S512x2048_S4x2048_S512x4_1_1_0_0_n_n.contr.Idx) :
    (dot_S512x2048_S4x2048_S512x4_1_1_0_0_n_n.rhsIdx j q 1).val = (q ⟨0, by decide⟩).val :=
  dot_S512x2048_S4x2048_S512x4_1_1_0_0_n_n.rhsIdx_val_of_single rfl j q

/-- The second product at (r, d): the sum over the 2048 positions of the left operand at (r, k)
    times the right operand at (d, k). -/
theorem matmulB_at (a : FVec Ideal S512x2048 .bf16) (b : FVec Ideal S4x2048 .bf16) (r : Fin 512) (d : Fin 4) :
    matmul (F := Ideal) dot_S512x2048_S4x2048_S512x4_1_1_0_0_n_n none a b (constant S512x4 .f32 0x00000000#32) (ix2 r d)
      = ∑ k : Fin 2048, a (ix2 r k) * b (ix2 d k) := by
  simp only [matmul]
  rw [Ideal.matmul_constant_zero_apply, ← Equiv.sum_comp (ValueIdx.contrEquiv1 dot_S512x2048_S4x2048_S512x4_1_1_0_0_n_n 2048 rfl rfl).symm]
  refine Finset.sum_congr rfl fun k _ => ?_
  have hk := ValueIdx.contrEquiv1_symm_val dot_S512x2048_S4x2048_S512x4_1_1_0_0_n_n 2048 rfl rfl k
  have el : dot_S512x2048_S4x2048_S512x4_1_1_0_0_n_n.lhsIdx (ix2 r d) ((ValueIdx.contrEquiv1 dot_S512x2048_S4x2048_S512x4_1_1_0_0_n_n 2048 rfl rfl).symm k) = ix2 r k := funext fun x => Fin.ext (by
    match x with
    | ⟨0, _⟩ => exact lhsB_0 _ _
    | ⟨1, _⟩ => exact (lhsB_1 _ _).trans hk)
  have er : dot_S512x2048_S4x2048_S512x4_1_1_0_0_n_n.rhsIdx (ix2 r d) ((ValueIdx.contrEquiv1 dot_S512x2048_S4x2048_S512x4_1_1_0_0_n_n 2048 rfl rfl).symm k) = ix2 d k := funext fun x => Fin.ext (by
    match x with
    | ⟨0, _⟩ => exact rhsB_0 _ _
    | ⟨1, _⟩ => exact (rhsB_1 _ _).trans hk)
  rw [el, er]

/-- A 512 × 4 vector given two leading unit axes, at (0, 0, r, d). -/
theorem castO_at (y : FVec Ideal S512x4 .f32) (r : Fin 512) (d : Fin 4) :
    shapeCast S1x1x512x4 y shapeCasts_S512x4_S1x1x512x4 (ix4 0 0 r d) = y (ix2 r d) :=
  shapeCast_apply y _ _ _ (by
    rw [Shape.rowMajor_val_two, Shape.rowMajor_val_four]
    show r.val * 4 + d.val = ((0 * 1 + 0) * 512 + r.val) * 4 + d.val
    omega)

/-- The stored output at (r, d): the sum over the positions k of the softmax of row r at k times
    the value block at (d, k). -/
theorem pay1_at (x0 : Vec Ideal S1x1x512x4 .f32) (x1 x2 : Vec Ideal S1x1x4x2048 .f32) (x3 : Vec Ideal S1x512x2048 .i32)
    (r : Fin 512) (d : Fin 4) :
    k0_pay1 (F := Ideal) (k0_pay4 x2) (k0_pay5 x0 x1 x3) (ValueIdx.ix4 0 0 r d)
      = ∑ k : Fin 2048, Cert.Attn.smRow (Cert.Attn.blockRow x0 x1 x3 r) k * x2 (ValueIdx.ix4 0 0 d k) := by
  unfold k0_pay1
  refine (castO_at _ r d).trans ?_
  refine (matmulB_at _ _ r d).trans ?_
  refine Finset.sum_congr rfl fun k _ => ?_
  have h5 : k0_pay5 (F := Ideal) x0 x1 x3 (ix2 r k) = k0_pay2 (F := Ideal) x0 x1 x3 (ix2 r k) := rfl
  have h4 : k0_pay4 (F := Ideal) x2 (ix2 d k) = shapeCast S4x2048 x2 shapeCasts_S1x1x4x2048_S4x2048 (ix2 d k) := rfl
  rw [h5, h4, pay2_at, castK_at]

end Cert.Attn.Ker

end
-- ==== Proof.Attn.Final.lean ====
/-
  From blocks to whole arrays.

  Every grid point writes back one 512-row block of the attention weights and one of the output; the
  blocks sit side by side and tile both arrays.  Each written block is the corresponding block of ONE
  function of the launched arrays (the softmax weights, and their product with the values), so after
  the last point both arrays hold those functions everywhere.
-/
import proofs.«410448_j65481071395643_3_alg».proof.Proof.Attn.Blocks
import proofs.«410448_j65481071395643_3_alg».proof.Proof.Attn.KerPay

set_option maxRecDepth 16384

noncomputable section

namespace Cert.Attn.Final

open Cert.KernelIdeal Cert.KernelIdeal.Gen Cert.KernelIdeal.Value Idealize.ShloMosaic Idealize.ShloMosaic.TcCoe Idealize.SL.Sem
open Idealize.ShloMosaic.ValueIdx Cert.Attn.Blocks Cert.Attn.Ker
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The attention weights of the launched arrays. -/
abbrev attnOf (c : Dev nD) : S4x16x2048x2048.Idx → EReal :=
  Cert.Attn.attn (m ((c : Thread nD τ).loc main_arg0)) (m ((c : Thread nD τ).loc main_arg1)) (m ((c : Thread nD τ).loc main_arg3))

/-- The attention output of the launched arrays. -/
abbrev outOf (c : Dev nD) : S4x16x2048x4.Idx → EReal :=
  Cert.Attn.out (m ((c : Thread nD τ).loc main_arg0)) (m ((c : Thread nD τ).loc main_arg1)) (m ((c : Thread nD τ).loc main_arg2)) (m ((c : Thread nD τ).loc main_arg3))

/-- What a point writes back to the weights array is its block of the weights. -/
theorem flushed5_eq (c : Dev nD) (t : Fin cfg0.N) :
    (dats m 0 c).flushed 5 t = ((cfg0.win 5).blk t).view.read (Elt Ideal) (attnOf m c) := by
  obtain ⟨f00, f01, f02, f03, f10, f11, f12, f13, f20, f21, f22, f23, f30, f31, f32, f40, f41, f42, f43, b0, b1, b2, f53⟩ := idx_facts t
  rw [Value.flushed5]
  unfold out0_5
  rw [View.canon_unit_zero hz4]
  simp only [View.ld_unit_zero (S := S1x1x512x4) hz4, View.ld_unit_zero (S := S1x1x4x2048) hz4, View.ld_unit_zero (S := S1x512x2048) hz3]
  funext j
  obtain ⟨r, k, rfl⟩ : ∃ (r : Fin 512) (k : Fin 2048), j = (ix4 0 0 r k : S1x1x512x2048.Idx) :=
    ⟨⟨(j 2).val, (j 2).isLt⟩, ⟨(j 3).val, (j 3).isLt⟩, funext fun a => Fin.ext (by
      match a with
      | ⟨0, _⟩ => show (j 0).val = 0; have h : (j 0).val < 1 := (j 0).isLt; omega
      | ⟨1, _⟩ => show (j 1).val = 0; have h : (j 1).val < 1 := (j 1).isLt; omega
      | ⟨2, _⟩ => rfl
      | ⟨3, _⟩ => rfl)⟩
  show k0_pay3 (F := Ideal) (iblk m c 0 t) (iblk m c 1 t) (iblk m c 3 t) (ix4 0 0 r k)
    = attnOf m c (((cfg0.win 5).blk t).view.emb (ix4 0 0 r k))
  refine (pay3_at (iblk m c 0 t) (iblk m c 1 t) (iblk m c 3 t) r k).trans ?_
  have he0 : ((((cfg0.win 5).blk t).view.emb (ix4 0 0 r k) : S4x16x2048x2048.Idx) 0).val = win0_5.index t (0 : Fin 4) := by
    show win0_5.index t (0 : Fin 4) * 1 + 1 * 0 = _; omega
  have he1 : ((((cfg0.win 5).blk t).view.emb (ix4 0 0 r k) : S4x16x2048x2048.Idx) 1).val = win0_5.index t (1 : Fin 4) := by
    show win0_5.index t (1 : Fin 4) * 1 + 1 * 0 = _; omega
  have he2 : ((((cfg0.win 5).blk t).view.emb (ix4 0 0 r k) : S4x16x2048x2048.Idx) 2).val = win0_5.index t (2 : Fin 4) * 512 + r.val := by
    show win0_5.index t (2 : Fin 4) * 512 + 1 * r.val = _; omega
  have he3 : ((((cfg0.win 5).blk t).view.emb (ix4 0 0 r k) : S4x16x2048x2048.Idx) 3) = k := Fin.ext (by
    show win0_5.index t (3 : Fin 4) * 2048 + 1 * k.val = _; omega)
  show Cert.Attn.smRow _ k = Cert.Attn.smRow (Cert.Attn.attnRow _ _ _ _ _ _) _
  rw [row_eq m c t r _ he0 he1 he2, he3]

/-- What a point writes back to the output array is its block of the attention output. -/
theorem flushed4_eq (c : Dev nD) (t : Fin cfg0.N) :
    (dats m 0 c).flushed 4 t = ((cfg0.win 4).blk t).view.read (Elt Ideal) (outOf m c) := by
  obtain ⟨f00, f01, f02, f03, f10, f11, f12, f13, f20, f21, f22, f23, f30, f31, f32, f40, f41, f42, f43, b0, b1, b2, f53⟩ := idx_facts t
  rw [Value.flushed4]
  unfold out0_4
  rw [View.canon_unit_zero hz4]
  simp only [View.ld_unit_zero (S := S1x1x512x4) hz4, View.ld_unit_zero (S := S1x1x4x2048) hz4, View.ld_unit_zero (S := S1x512x2048) hz3]
  funext j
  obtain ⟨r, d, rfl⟩ : ∃ (r : Fin 512) (d : Fin 4), j = (ix4 0 0 r d : S1x1x512x4.Idx) :=
    ⟨⟨(j 2).val, (j 2).isLt⟩, ⟨(j 3).val, (j 3).isLt⟩, funext fun a => Fin.ext (by
      match a with
      | ⟨0, _⟩ => show (j 0).val = 0; have h : (j 0).val < 1 := (j 0).isLt; omega
      | ⟨1, _⟩ => show (j 1).val = 0; have h : (j 1).val < 1 := (j 1).isLt; omega
      | ⟨2, _⟩ => rfl
      | ⟨3, _⟩ => rfl)⟩
  show k0_pay1 (F := Ideal) (k0_pay4 (iblk m c 2 t)) (k0_pay5 (iblk m c 0 t) (iblk m c 1 t) (iblk m c 3 t)) (ix4 0 0 r d)
    = outOf m c (((cfg0.win 4).blk t).view.emb (ix4 0 0 r d))
  refine (pay1_at (iblk m c 0 t) (iblk m c 1 t) (iblk m c 2 t) (iblk m c 3 t) r d).trans ?_
  generalize hE : (((cfg0.win 4).blk t).view.emb (ix4 0 0 r d) : S4x16x2048x4.Idx) = E
  have he0 : (E 0).val = win0_5.index t (0 : Fin 4) := by
    rw [← hE]; show win0_4.index t (0 : Fin 4) * 1 + 1 * 0 = _; omega
  have he1 : (E 1).val = win0_5.index t (1 : Fin 4) := by
    rw [← hE]; show win0_4.index t (1 : Fin 4) * 1 + 1 * 0 = _; omega
  have he2 : (E 2).val = win0_5.index t (2 : Fin 4) * 512 + r.val := by
    rw [← hE]; show win0_4.index t (2 : Fin 4) * 512 + 1 * r.val = _; omega
  have he3 : E 3 = d := Fin.ext (by
    rw [← hE]; show win0_4.index t (3 : Fin 4) * 4 + 1 * d.val = _; omega)
  show (∑ k : Fin 2048, Cert.Attn.smRow (Cert.Attn.blockRow (iblk m c 0 t) (iblk m c 1 t) (iblk m c 3 t) r) k * iblk m c 2 t (ix4 0 0 d k))
    = ∑ k : Fin 2048, Cert.Attn.smRow (Cert.Attn.attnRow (m ((c : Thread nD τ).loc main_arg0)) (m ((c : Thread nD τ).loc main_arg1)) (m ((c : Thread nD τ).loc main_arg3)) (E 0) (E 1) (E 2)) k
        * m ((c : Thread nD τ).loc main_arg2) (ix4 (E 0) (E 1) k (E 3))
  refine Finset.sum_congr rfl fun k _ => ?_
  rw [row_eq m c t r (ix4 (E 0) (E 1) (E 2) k) he0 he1 he2, vblk_eq m c t d k (E 0) (E 1) he0 he1, he3]

/-- An index of the weights array lies in a point's block iff every coordinate lies in the block's range. -/
theorem mem_blk5 (t : Fin cfg0.N) (i : S4x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v2_1).slice (win0_5.rect t)).set ↔ _
  rw [View.set_slice_whole, Rect.mem_set_unit]
  exact Iff.rfl

/-- The same for the output array. -/
theorem mem_blk4 (t : Fin cfg0.N) (i : S4x16x2048x4.Idx) :
    i ∈ ((cfg0.win 4).blk t).view.set ↔ ∀ a : Fin 4, win0_4.index t a * S1x1x512x4.size a ≤ (i a).val ∧ (i a).val < win0_4.index t a * S1x1x512x4.size a + S1x1x512x4.size a := by
  show i ∈ ((View.whole main_v2_0).slice (win0_4.rect t)).set ↔ _
  rw [View.set_slice_whole, Rect.mem_set_unit]
  exact Iff.rfl

/-- Every index of the weights array is in the block of the point of its batch, head and query tile
    (row / 512). -/
theorem cover5 (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  obtain ⟨p0, p1, p2⟩ := pt_index ⟨(i 0).val, h0⟩ ⟨(i 1).val, h1⟩ ⟨(i 2).val / 512, by omega⟩
  generalize pt ⟨(i 0).val, h0⟩ ⟨(i 1).val, h1⟩ ⟨(i 2).val / 512, by omega⟩ = t at p0 p1 p2
  obtain ⟨f00, f01, f02, f03, f10, f11, f12, f13, f20, f21, f22, f23, f30, f31, f32, f40, f41, f42, f43, b0, b1, b2, f53⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; simp only at p0; omega
  | ⟨1, _⟩ => show win0_5.index t (1 : Fin 4) * 1 ≤ (i 1).val ∧ (i 1).val < win0_5.index t (1 : Fin 4) * 1 + 1; simp only at p1; omega
  | ⟨2, _⟩ => show win0_5.index t (2 : Fin 4) * 512 ≤ (i 2).val ∧ (i 2).val < win0_5.index t (2 : Fin 4) * 512 + 512; simp only at p2; omega
  | ⟨3, _⟩ => show win0_5.index t (3 : Fin 4) * 2048 ≤ (i 3).val ∧ (i 3).val < win0_5.index t (3 : Fin 4) * 2048 + 2048; omega

/-- And every index of the output array likewise. -/
theorem cover4 (i : S4x16x2048x4.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 4 := (i 3).isLt
  obtain ⟨p0, p1, p2⟩ := pt_index ⟨(i 0).val, h0⟩ ⟨(i 1).val, h1⟩ ⟨(i 2).val / 512, by omega⟩
  generalize pt ⟨(i 0).val, h0⟩ ⟨(i 1).val, h1⟩ ⟨(i 2).val / 512, by omega⟩ = t at p0 p1 p2
  obtain ⟨f00, f01, f02, f03, f10, f11, f12, f13, f20, f21, f22, f23, f30, f31, f32, f40, f41, f42, f43, b0, b1, b2, f53⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; simp only at p0; omega
  | ⟨1, _⟩ => show win0_4.index t (1 : Fin 4) * 1 ≤ (i 1).val ∧ (i 1).val < win0_4.index t (1 : Fin 4) * 1 + 1; simp only at p1; omega
  | ⟨2, _⟩ => show win0_4.index t (2 : Fin 4) * 512 ≤ (i 2).val ∧ (i 2).val < win0_4.index t (2 : Fin 4) * 512 + 512; simp only at p2; omega
  | ⟨3, _⟩ => show win0_4.index t (3 : Fin 4) * 4 ≤ (i 3).val ∧ (i 3).val < win0_4.index t (3 : Fin 4) * 4 + 4; omega

/-- After the last point the weights array holds the attention weights of the launched arrays. -/
theorem final5 (c : Dev nD) : (dats m 0 c).arrAt 5 cfg0.N = attnOf m c :=
  (dats m 0 c).arrAt_eq_of_cover 5 (attnOf m c) (fun t _ => flushed5_eq m c t) cover5

/-- And the output array the attention output. -/
theorem final4 (c : Dev nD) : (dats m 0 c).arrAt 4 cfg0.N = outOf m c :=
  (dats m 0 c).arrAt_eq_of_cover 4 (outOf m c) (fun t _ => flushed4_eq m c t) cover4

/-- The kernel's run: every fair execution ends with the output and the weights at those functions of the
    launched arrays, and the launched arrays unchanged. -/
theorem run : θ_run defs (onTc (τ := τ) (main (F := Ideal))) ⟨m, fun _ => 0, ρ⟩ fun r => ∀ c : Dev nD,
      r.2.mem ((c : Thread nD τ).loc main_v2_0) = outOf m c
      ∧ r.2.mem ((c : Thread nD τ).loc main_v2_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.Attn.Final

end
-- ==== Proof.Attn.RefIs.lean ====
/-
  The reference program's stages are the specification.

  Read one stage at a time, at explicit coordinates (batch b, head h, query position q, key
  position k): the masked score stage is the mask's selection between the sentinel and the dot
  product of the query row with the key row, scaled by 1 / sqrt 4; the max-reduce over the key axis
  is the fold of max from minus infinity over the score row, and the further maximum with minus
  infinity changes nothing; the exponential stage is exp of the score minus that row maximum; the
  sum stage is zero plus the row's sum of exponentials; the quotient stage is therefore the softmax
  of the score row.  On real queries and keys, scaling the dot product by 1 / sqrt 4 is the same as
  halving each query feature first, so the score row is the specification's row and the weights are
  the specification's weights.  The output is the contraction of the weights with the value rows
  over the key position.
-/
import proofs.«410448_j65481071395643_3_alg».proof.Proof.Gen.ReferenceIdeal.Read
import proofs.«410448_j65481071395643_3_alg».proof.Proof.Attn.Spec
import Idealize.ShloMosaic.PureOps.Reduce
import Idealize.ShloMosaic.PureOps.Ideal.Laws
import Idealize.ShloMosaic.Lib.ValueIdx

noncomputable section

namespace Cert.Attn.Ref

open Idealize.ShloMosaic Idealize.ShloMosaic.ValueIdx Cert.ReferenceIdeal Cert.ReferenceIdeal.Read Cert.Attn

variable (x0 x1 x2 : (⟨S4x16x2048x4, .f32⟩ : BufTy).Contents (Elt Ideal))
  (x3 : (⟨S4x2048x2048, .i32⟩ : BufTy).Contents (Elt Ideal))

/-- The scale stage is the constant 1 / sqrt 4 at every index. -/
theorem v3_eq (i : S4x16x2048x2048.Idx) : val_main_v3 (F := Ideal) i = invSqrt4 := by
  rw [val_main_v3_apply, val_main_v1_apply, val_main_v0_apply, val_main_cst_0_apply, val_main_cst_apply]
  rfl

/-- The masked score stage at explicit coordinates: the mask word selects between the sentinel and
    the dot product of the query row and the key row, scaled by 1 / sqrt 4. -/
theorem v8_at (b : Fin 4) (h : Fin 16) (q k : Fin 2048) :
    val_main_v8 (F := Ideal) x0 x1 x3 (ix4 b h q k)
      = maskSel (x3 (ix3 b q k)) (scoreR (fun d => x0 (ix4 b h q d)) (fun d => x1 (ix4 b h k d))) := by
  rw [val_main_v8_apply, val_main_call0_v0_apply, val_main_v7_apply, val_main_v5_apply, val_main_v6_apply,
    val_main_c_apply, val_main_call0_v1_apply, val_main_cst_1_apply, val_main_v4_apply, val_main_v2_apply, v3_eq]
  have e1 : idx_main_v5 (idx_main_call0_v0 (ix4 b h q k)) = ix3 b q k := by
    funext a; match a with | ⟨0, _⟩ => rfl | ⟨1, _⟩ => rfl | ⟨2, _⟩ => rfl
  have e2 : ∀ d : Fin 4, lidx_main_v2 (ix4 b h q k) d = ix4 b h q d := fun d => by
    funext a; match a with | ⟨0, _⟩ => rfl | ⟨1, _⟩ => rfl | ⟨2, _⟩ => rfl | ⟨3, _⟩ => rfl
  have e3 : ∀ d : Fin 4, ridx_main_v2 (ix4 b h q k) d = ix4 b h k d := fun d => by
    funext a; match a with | ⟨0, _⟩ => rfl | ⟨1, _⟩ => rfl | ⟨2, _⟩ => rfl | ⟨3, _⟩ => rfl
  simp only [e1, e2, e3]
  rfl

/-- The reference's masked score row at batch b, head h, query position q. -/
def row (b : Fin 4) (h : Fin 16) (q : Fin 2048) : Fin 2048 → EReal :=
  fun k => val_main_v8 (F := Ideal) x0 x1 x3 (ix4 b h q k)

/-- The max-reduce stage at (b, h, q) is the maximum of the score row, folded from minus infinity. -/
theorem v9_at (b : Fin 4) (h : Fin 16) (q : Fin 2048) :
    val_main_v9 (F := Ideal) x0 x1 x3 (ix3 b h q) = rowMax (row x0 x1 x3 b h q) := by
  unfold val_main_v9
  have hR : S4x16x2048x2048.Reduces [3] S4x16x2048 := by decide
  refine (Host.reduce_eq_fold_single (FloatOps.maximumf (F := Ideal) (φ := .f32)) _ _ _ hR _ (ix3 b h q)).trans ?_
  have e : (val_main_v8 (F := Ideal) x0 x1 x3 ∘ hR.lift (ix3 b h q)) = row x0 x1 x3 b h q := by
    funext k
    exact congrArg (val_main_v8 (F := Ideal) x0 x1 x3) (funext fun a => Fin.ext (by
      match a with | ⟨0, _⟩ => rfl | ⟨1, _⟩ => rfl | ⟨2, _⟩ => rfl | ⟨3, _⟩ => rfl))
  rw [e]
  rfl

/-- Taking the maximum with minus infinity once more leaves the row maximum. -/
theorem v11_at (b : Fin 4) (h : Fin 16) (q : Fin 2048) :
    val_main_v11 (F := Ideal) x0 x1 x3 (ix3 b h q) = rowMax (row x0 x1 x3 b h q) := by
  rw [val_main_v11_apply, val_main_v10_apply, val_main_cst_3_apply, v9_at]
  exact max_negInf_rowMax _

/-- The exponential stage: the exponential of the score minus the row maximum. -/
theorem v15_at (b : Fin 4) (h : Fin 16) (q k : Fin 2048) :
    val_main_v15 (F := Ideal) x0 x1 x3 (ix4 b h q k)
      = Ideal.exp (row x0 x1 x3 b h q k - rowMax (row x0 x1 x3 b h q)) := by
  rw [val_main_v15_apply, val_main_v14_apply, val_main_v13_apply, val_main_v12_apply]
  have e : idx_main_v12 (idx_main_v13 (ix4 b h q k)) = ix3 b h q := by
    funext a; match a with | ⟨0, _⟩ => rfl | ⟨1, _⟩ => rfl | ⟨2, _⟩ => rfl
  rw [e, v11_at]
  rfl

/-- The sum stage: the row's sum of exponentials. -/
theorem v16_at (b : Fin 4) (h : Fin 16) (q : Fin 2048) :
    val_main_v16 (F := Ideal) x0 x1 x3 (ix3 b h q)
      = ∑ k : Fin 2048, Ideal.exp (row x0 x1 x3 b h q k - rowMax (row x0 x1 x3 b h q)) := by
  rw [val_main_v16_apply, val_main_cst_4_apply]
  show Ideal.ofBits .f32 0x00000000#32 + _ = _
  rw [Ideal.ofBits_zero_f32, zero_add]
  refine Finset.sum_congr rfl fun k _ => ?_
  have e : idx_main_v16 (ix3 b h q) k = ix4 b h q k := by
    funext a; match a with | ⟨0, _⟩ => rfl | ⟨1, _⟩ => rfl | ⟨2, _⟩ => rfl | ⟨3, _⟩ => rfl
  rw [e, v15_at]

/-- The quotient stage is the softmax of the score row. -/
theorem v19_at (b : Fin 4) (h : Fin 16) (q k : Fin 2048) :
    val_main_v19 (F := Ideal) x0 x1 x3 (ix4 b h q k) = smRow (row x0 x1 x3 b h q) k := by
  rw [val_main_v19_apply, val_main_v18_apply, val_main_v17_apply]
  have e : idx_main_v17 (idx_main_v18 (ix4 b h q k)) = ix3 b h q := by
    funext a; match a with | ⟨0, _⟩ => rfl | ⟨1, _⟩ => rfl | ⟨2, _⟩ => rfl
  rw [e, v16_at, v15_at]
  rfl

/-- On real queries and keys the reference's score row is the specification's. -/
theorem row_eq (h0 : ∀ i, ∃ r : ℝ, x0 i = (r : EReal)) (h1 : ∀ i, ∃ r : ℝ, x1 i = (r : EReal))
    (b : Fin 4) (h : Fin 16) (q : Fin 2048) : row x0 x1 x3 b h q = attnRow x0 x1 x3 b h q := by
  funext k
  unfold row attnRow
  rw [v8_at, score_eq _ _ (fun d => h0 _) (fun d => h1 _)]

/-- The reference's attention weights are the specification's. -/
theorem ref_attn (x0 x1 : (⟨Cert.ReferenceIdeal.S4x16x2048x4, .f32⟩ : BufTy).Contents (Elt Ideal)) (x3 : (⟨Cert.ReferenceIdeal.S4x2048x2048, .i32⟩ : BufTy).Contents (Elt Ideal))
    (h0 : ∀ i, ∃ r : ℝ, x0 i = (r : EReal)) (h1 : ∀ i, ∃ r : ℝ, x1 i = (r : EReal)) :
    Cert.ReferenceIdeal.Read.val_main_v19 (F := Ideal) x0 x1 x3 = Cert.Attn.attn x0 x1 x3 := by
  funext i
  have hi : i = ix4 (n0 := 4) (n1 := 16) (n2 := 2048) (n3 := 2048) (i 0) (i 1) (i 2) (i 3) := by
    funext a; match a with | ⟨0, _⟩ => rfl | ⟨1, _⟩ => rfl | ⟨2, _⟩ => rfl | ⟨3, _⟩ => rfl
  refine (congrArg (val_main_v19 (F := Ideal) x0 x1 x3) hi).trans ?_
  refine (v19_at x0 x1 x3 (i 0) (i 1) (i 2) (i 3)).trans ?_
  exact congrArg (fun s => smRow s (i 3)) (row_eq x0 x1 x3 h0 h1 (i 0) (i 1) (i 2))

/-- The reference's output is the specification's: the weights applied to the value rows. -/
theorem ref_out (x0 x1 x2 : (⟨Cert.ReferenceIdeal.S4x16x2048x4, .f32⟩ : BufTy).Contents (Elt Ideal)) (x3 : (⟨Cert.ReferenceIdeal.S4x2048x2048, .i32⟩ : BufTy).Contents (Elt Ideal))
    (h0 : ∀ i, ∃ r : ℝ, x0 i = (r : EReal)) (h1 : ∀ i, ∃ r : ℝ, x1 i = (r : EReal)) :
    Cert.ReferenceIdeal.Read.val_main_v20 (F := Ideal) x0 x1 x2 x3 = Cert.Attn.out x0 x1 x2 x3 := by
  funext i
  rw [val_main_v20_apply, ref_attn x0 x1 x3 h0 h1]
  unfold out
  refine Finset.sum_congr rfl fun k _ => ?_
  have el : lidx_main_v20 i k = ix4 (i 0) (i 1) (i 2) k := by
    funext a; match a with | ⟨0, _⟩ => rfl | ⟨1, _⟩ => rfl | ⟨2, _⟩ => rfl | ⟨3, _⟩ => rfl
  have er : ridx_main_v20 i k = ix4 (i 0) (i 1) k (i 3) := by
    funext a; match a with | ⟨0, _⟩ => rfl | ⟨1, _⟩ => rfl | ⟨2, _⟩ => rfl | ⟨3, _⟩ => rfl
  rw [el, er]
  rfl

end Cert.Attn.Ref

end
-- ==== Proof.Attn.Finite.lean ====
/-
  Finite inputs are real.

  The precondition says that every query, key and value entry has absolute value below plus infinity.
  An extended real with that property is neither infinity, so it is a real number: this is what lets
  multiplication distribute over the four-term feature sum in the score.
-/
import proofs.«410448_j65481071395643_3_alg».proof.Pre_finite_inputs
import proofs.«410448_j65481071395643_3_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Cert.Pre_finite_inputs

instance : Subsingleton S_.Idx := ⟨fun a b => funext fun d => d.elim0⟩

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every query and every key entry is a real. -/
theorem finite_of_pre (x0 x1 x2 : FVec Ideal S4x16x2048x4 .f32) (x3 : IVec S4x2048x2048 32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have h' := congrFun h ValueIdx.ix0
  dsimp only [Cert.Pre_finite_inputs.fn] at h'
  obtain ⟨h12, -⟩ := IntOp.andi_eq_one.mp h'
  obtain ⟨ha, hb⟩ := IntOp.andi_eq_one.mp h12
  refine ⟨fun i => ?_, fun i => ?_⟩
  · exact real_of_abs_lt (x0 i) (Host.reduce_andi_all _ _ _ _ _ ha i)
  · exact real_of_abs_lt (x1 i) (Host.reduce_andi_all _ _ _ _ _ hb i)

end Cert.Attn.Finite

end
-- ==== Proof.lean ====
/-
  Masked softmax attention: a tiled kernel against the plain formula.

  Inputs are queries, keys and values of shape [4, 16, 2048, 4] and an integer mask [4, 2048, 2048].
  For every batch, head and query position the score against key position k is the four-term dot
  product of the query and key rows, scaled by 1 / sqrt 4; where the mask word is zero the score is
  replaced by -1e9; the row of scores is normalised by softmax (subtract the row maximum, exponentiate,
  divide by the row sum); the output row is the weighted sum of the value rows.  Both results are
  returned: the output [4, 16, 2048, 4] and the weights [4, 16, 2048, 2048].

  The kernel walks a 4 × 4 × 16 grid (batch, tile of 512 query rows, head).  It multiplies every
  query feature by 1/2 BEFORE the dot product, reads keys and values with the feature axis in front
  of the position axis (a transpose done beforehand), and writes one 512-row block of each result
  per point.  The reference multiplies the finished dot product by 1 / sqrt 4 AFTERWARDS and takes the
  maximum of the row maximum with minus infinity once more.

  Why they agree on the extended reals.  (1) sqrt 4 = 2, so 1 / sqrt 4 = 1/2; on REAL entries
  (Σ_d (q_d · 1/2) · k_d) = (Σ_d q_d · k_d) · 1/2 by distributivity — this is the one place where
  the finiteness of the inputs is used, since distributivity fails at the infinities.  (2) The
  maximum of minus infinity and a maximum already folded from minus infinity is that maximum.
  (3) The sum started from the pattern of zero is the plain sum.  (4) After the scores every
  operation is the same on both sides, row by row.  (5) The blocks the grid points write tile both
  result arrays, and each block is the matching block of one whole-array function, so the arrays end
  holding that function everywhere.  Nothing was rewritten between the word-level kernel and its
  reading over the extended reals, so that step has nothing to show.
-/
import proofs.«410448_j65481071395643_3_alg».proof.Defs
import proofs.«410448_j65481071395643_3_alg».proof.Proof.Gen.Kernel
import proofs.«410448_j65481071395643_3_alg».proof.Proof.Gen.Kernel.Skeleton
import proofs.«410448_j65481071395643_3_alg».proof.Proof.Gen.Kernel.Launch
import proofs.«410448_j65481071395643_3_alg».proof.Proof.Gen.Kernel.Points
import proofs.«410448_j65481071395643_3_alg».proof.Proof.Gen.Kernel.Frame
import proofs.«410448_j65481071395643_3_alg».proof.Proof.Gen.KernelIdeal
import proofs.«410448_j65481071395643_3_alg».proof.Proof.Gen.KernelIdeal.Skeleton
import proofs.«410448_j65481071395643_3_alg».proof.Proof.Gen.KernelIdeal.Launch
import proofs.«410448_j65481071395643_3_alg».proof.Proof.Gen.KernelIdeal.Points
import proofs.«410448_j65481071395643_3_alg».proof.Proof.Gen.KernelIdeal.Frame
import proofs.«410448_j65481071395643_3_alg».proof.Proof.Gen.ReferenceIdeal
import proofs.«410448_j65481071395643_3_alg».proof.Proof.Gen.Pre_finite_inputs
import proofs.«410448_j65481071395643_3_alg».proof.Proof.Gen.KernelIdeal.Value
import proofs.«410448_j65481071395643_3_alg».proof.Proof.Gen.ReferenceIdeal.Run
import proofs.«410448_j65481071395643_3_alg».proof.Proof.Gen.ReferenceIdeal.Read
import proofs.«410448_j65481071395643_3_alg».proof.Proof.Attn.Final
import proofs.«410448_j65481071395643_3_alg».proof.Proof.Attn.RefIs
import proofs.«410448_j65481071395643_3_alg».proof.Proof.Attn.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the attention output and the attention weights of the launched arrays. -/
theorem algebraic : Cert.algebraic_KernelIdeal_ReferenceIdeal := by
  intro m ρ m' ρ' hpre hagree
  refine ⟨fun c => Cert.Attn.Final.outOf m c, fun c => Cert.Attn.Final.attnOf m c, Cert.Attn.Final.run m ρ, ?_⟩
  refine (θ_run Cert.ReferenceIdeal.defs _ _).mono (fun r h c => ?_) (Cert.ReferenceIdeal.Value.run (F := Ideal) m' ρ')
  obtain ⟨hfin0, hfin1⟩ := Cert.Attn.Finite.finite_of_pre _ _ _ _ (hpre c)
  obtain ⟨a0, a1, a2, a3⟩ := hagree c
  refine ⟨(h c).1.trans ?_, (h c).2.1.trans ?_, (h c).2.2⟩
  · rw [Cert.ReferenceIdeal.Read.val_main_v20_eq, a0, a1, a2, a3]
    exact Cert.Attn.Ref.ref_out _ _ _ _ hfin0 hfin1
  · refine (Cert.ReferenceIdeal.Read.val_main_v19_eq _ _ _).trans ?_
    rw [a0, a1, a3]
    exact Cert.Attn.Ref.ref_attn _ _ _ hfin0 hfin1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
